-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S1x4096 : Shape := ⟨2, ![1, 4096]⟩
abbrev S128x1024 : Shape := ⟨2, ![128, 1024]⟩
abbrev S128x4096 : Shape := ⟨2, ![128, 4096]⟩

abbrev nBuf : Space → Nat
  | .hbm => 33
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S1024x4096, .f32⟩
  | .hbm, ⟨22, _⟩ => ⟨S1024x4096, .bf16⟩
  | .hbm, ⟨23, _⟩ => ⟨S1024x4096, .f32⟩
  | .hbm, ⟨24, _⟩ => ⟨S1024x4096, .bf16⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S4096, .f32⟩
  | .hbm, ⟨30, _⟩ => ⟨S1x4096, .f32⟩
  | .hbm, ⟨31, _⟩ => ⟨S4096x1024, .f32⟩
  | .hbm, ⟨32, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12_0 : Ref sig .tc := ⟨.hbm, 31, rfl⟩
abbrev main_v12_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  transposes_S4096x1024_S1024x4096_1_0 : S4096x1024.Transposes [1, 0] S1024x4096
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S4096x1024.size a
  hwx0_6 : ∀ i : grid0.Coords, EltTy.bits .f32 = 32 ∨ (Rect.block (s := S4096x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S4096x1024.size a
  hwx0_7 : ∀ i : grid0.Coords, EltTy.bits .f32 = 32 ∨ (Rect.block (s := S4096x1024) S128x1024.size (cc0_transform_7 i) (hinb0_7 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 93
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S1024x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S1024x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S1024x1024, .f32⟩
  | .hbm, ⟨44, _⟩ => ⟨S4096x1024, .f32⟩
  | .hbm, ⟨45, _⟩ => ⟨S4096x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S1024x1024, .f32⟩
  | .hbm, ⟨58, _⟩ => ⟨S4096x1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S1024x1024, .f32⟩
  | .hbm, ⟨63, _⟩ => ⟨S4096x1024, .f32⟩
  | .hbm, ⟨64, _⟩ => ⟨S4096x1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S1024x1024, .f32⟩
  | .hbm, ⟨70, _⟩ => ⟨S4096x1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S1024x1024, .f32⟩
  | .hbm, ⟨75, _⟩ => ⟨S4096x1024, .f32⟩
  | .hbm, ⟨76, _⟩ => ⟨S4096x1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_1 : Ref sig .tc := ⟨.hbm, 51, rfl⟩
abbrev main_v30 : Ref sig .tc := ⟨.hbm, 52, rfl⟩
abbrev main_v31 : Ref sig .tc := ⟨.hbm, 53, rfl⟩
abbrev main_cst_2 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_3 : Ref sig .tc := ⟨.hbm, 82, rfl⟩
abbrev main_v59 : Ref sig .tc := ⟨.hbm, 83, rfl⟩
abbrev main_v60 : Ref sig .tc := ⟨.hbm, 84, rfl⟩
abbrev main_cst_4 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x1024_S1024x1024_S4096x1024_1_0_0_1_n_n_wf : DotDims.WF S4096x1024 S1024x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.FrameBitsA.lean ====
/-
  The fused kernel's program up to its one region, and what the frame claim needs of a run.

  The program first runs twelve host operations (two stacks of four weight matrices, their transposes and
  format changes, four sums of two bias vectors, their concatenation and a reshape), then the kernel's
  region on a grid of 32 points. None of the twelve operations allocates a buffer, and none writes one of
  the nineteen argument arrays; so the region is entered with every argument as launched, and the three
  arrays the kernel reads beside `x`, `h` and `c` hold the operations' results. A window's block at a grid
  point is the part of its array, as the region finds it, that the window's index map selects there. A run
  that ends with every staged array at what the proof data computes and every other unscoped buffer as the
  region found it leaves all nineteen arguments unchanged: three are input windows' arrays, sixteen are
  staged by no window.
-/
import proofs.«169127_j32598801776688_1_alg».proof.Proof.Gen.Kernel.Launch
import proofs.«169127_j32598801776688_1_alg».proof.Proof.Gen.Kernel.Skeleton
import proofs.«169127_j32598801776688_1_alg».proof.Proof.Gen.Kernel.Points
import Idealize.ShloMosaic.Lib.Pipeline.FrameBody
import Idealize.ShloMosaic.Lib.Ring
import Idealize.ShloMosaic.Lib.Tactic

-- membership in a rectangle of these extents is decided by a structural look that recurses once per coordinate
set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the twelve host operations. -/
abbrev V (c : Dev nD) (b : Ref sig .tc) : Buf (Elt F) ((c : Thread nD τ).loc b) := StableHlo.after hostOps0 (fun b => m (c, b)) b

/-- None of the twelve host operations allocates a buffer. -/
theorem hostOps0_fresh : (hostOps0 : List (HloOp τ sig (Elt F))).Forall fun op => op.fresh = ∅ := by
  simp only [List.Forall]; repeat' constructor

/-- The program up to the region: the host operations, then the region entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the twelve host operations writes argument 0: the kernel's region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 1: the kernel's region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 2: the kernel's region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 3: the kernel's region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 4: the kernel's region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 5: the kernel's region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 6: the kernel's region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 7: the kernel's region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 8: the kernel's region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 9: the kernel's region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 10: the kernel's region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 11: the kernel's region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 12: the kernel's region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 13: the kernel's region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 14: the kernel's region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 15: the kernel's region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 16: the kernel's region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 17: the kernel's region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 18: the kernel's region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every grid point, fetched there or not
    (where it is not fetched the block index has not moved), for any proof data over the region-entry arrays
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds the window's block at every grid point, fetched there or not
    (where it is not fetched the block index has not moved), for any proof data over the region-entry arrays
    whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds the window's block at every grid point, fetched there or not
    (where it is not fetched the block index has not moved), for any proof data over the region-entry arrays
    whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds the window's block at every grid point, fetched there or not
    (where it is not fetched the block index has not moved), for any proof data over the region-entry arrays
    whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds the window's block at every grid point, fetched there or not
    (where it is not fetched the block index has not moved), for any proof data over the region-entry arrays
    whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds the window's block at every grid point, fetched there or not
    (where it is not fetched the block index has not moved), for any proof data over the region-entry arrays
    whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run -/

/-- For any proof data over the region-entry arrays, a final state with every staged array at what the proof data
    computes and every other unscoped buffer as the region found it has the nineteen arguments as launched:
    `x`, `h`, `c` are input windows' arrays, the sixteen others no window's. -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩

/-- So a run to such a final state is a run that leaves the nineteen arguments as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => kept_of m dats hA r h c) h

end Cert.Kernel.Fr

end
-- ==== Proof.FrameBitsB.lean ====
/-
  The kernel body's triple.

  On eight whole staging buffers — `x`'s, `h`'s and `c`'s blocks of 128 rows, the two fused weight matrices,
  the fused bias row, and the two output blocks at any contents — the body loads its six inputs whole, loads
  each output buffer (the values are not used), and stores one whole block into each: the new hidden values
  into the first, the new cell values into the second. So it ends with the six inputs as they were and each
  output buffer at the one stored block, a pure function of the six inputs.
-/
import proofs.«169127_j32598801776688_1_alg».proof.Proof.Gen.Kernel.Skeleton
import proofs.«169127_j32598801776688_1_alg».proof.Proof.Gen.Kernel.Launch
import Idealize.ShloMosaic.Lib.Pipeline.FrameBody
import Idealize.ShloMosaic.Lib.Ring
import Idealize.ShloMosaic.Lib.Tactic

-- membership in a rectangle of these extents is decided by a structural look that recurses once per coordinate
set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: three whole rectangles -/

/-- A whole block of 128 rows. -/
abbrev rB : Rect S128x1024 := Rect.unit (s := S128x1024) ![0, 0] S128x1024.size inb_S128x1024_S128x1024_0_0
/-- A whole fused weight matrix. -/
abbrev rW : Rect S1024x4096 := Rect.unit (s := S1024x4096) ![0, 0] S1024x4096.size inb_S1024x4096_S1024x4096_0_0
/-- The whole fused bias row. -/
abbrev rV : Rect S1x4096 := Rect.unit (s := S1x4096) ![0, 0] S1x4096.size inb_S1x4096_S1x4096_0_0

/-! ## What the body leaves in each output buffer -/

/-- The first output buffer after the body: its one store, the new hidden values of the block. -/
def out0_6 (x0 x1 x2 : Vec F S128x1024 .f32) (x3 x4 : Vec F S1024x4096 .bf16) (x5 : Vec F S1x4096 .f32) : Vec F S128x1024 .f32 :=
  View.canon [⟨rB, k0_pay3 (View.ld x0 rB) (View.ld x1 rB) (View.ld x3 rW) (View.ld x4 rW) (View.ld x5 rV) (View.ld x2 rB)⟩]

/-- The second output buffer after the body: its one store, the new cell values of the block. -/
def out0_7 (x0 x1 x2 : Vec F S128x1024 .f32) (x3 x4 : Vec F S1024x4096 .bf16) (x5 : Vec F S1x4096 .f32) : Vec F S128x1024 .f32 :=
  View.canon [⟨rB, k0_pay2 (View.ld x0 rB) (View.ld x1 rB) (View.ld x3 rW) (View.ld x4 rW) (View.ld x5 rV) (View.ld x2 rB)⟩]

/-- One whole-block store covers the buffer. -/
theorem cover0 (p0 : Vec F S128x1024 .f32) (y : S128x1024.Idx) :
    ∃ pc ∈ ([⟨rB, p0⟩] : List (View.Piece (Elt F) S128x1024 .f32)), y ∈ pc.1.set :=
  View.cover_of_tiled [⟨rB, p0⟩] S128x1024.size (by rfl) y

/-! ## The triple -/

set_option maxHeartbeats 4000000 in
/-- The body on whole staging buffers, the inputs' at contents `x0 … x5` and the outputs' at anything, runs to the
    continuation holding the inputs' as they were and the outputs' at `out0_6` and `out0_7` of the inputs'. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (x0 x1 x2 : Vec F S128x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

end Cert.Kernel.Fr

end
-- ==== Proof.FrameBitsC.lean ====
/-
  The kernel's region: proof data, the body at a grid point, the run, and the frame.

  At grid point `t` the six input windows' current buffers hold their blocks (rows `128 t … 128 t + 127` of
  `x`, `h` and `c`; the two fused weight matrices and the fused bias row whole, fetched at the first point and
  not again, their block index never moving), and the two output buffers hold anything. The body leaves the
  inputs in place and each output buffer at its one stored block, which the pipeline writes back at every
  point. Nothing is carried from one point to the next, the kernel owes no signal, and it touches none of the
  core's other scoped state. With the body's triple at every point the library's frame run applies: every
  weakly fair execution ends, without a fault, with each staged array at what the proof data computes and every
  other unscoped buffer as the region found it; the nineteen arguments are among the latter or are input
  windows' arrays, so they end as launched.
-/
import proofs.«169127_j32598801776688_1_alg».proof.Proof.FrameBitsA
import proofs.«169127_j32598801776688_1_alg».proof.Proof.FrameBitsB

-- membership in a rectangle of these extents is decided by a structural look that recurses once per coordinate
set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them; after the body at point
    `t` each input's buffer at its block and each output's at its stored block of the input blocks; the
    invariant the core's other scoped state untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents (the definition projected, never unfolded further). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and
    the core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes
-- unfolding plain definitions in a metavariable's type
set_option backward.isDefEq.respectTransparency.types false in
/-- From any memory with zero counters every weakly fair execution of the program terminates, and every final
    state has every staged array at what the library computes from the proof data and every other unscoped
    buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every weakly fair execution terminates, without a fault, with the nineteen arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Fr

end
-- ==== Proof.FrameIdealA.lean ====
/-
  The fused kernel's program up to its one region, and what the frame claim needs of a run.

  The program first runs twelve host operations (two stacks of four weight matrices, their transposes and
  format changes, four sums of two bias vectors, their concatenation and a reshape), then the kernel's
  region on a grid of 32 points. None of the twelve operations allocates a buffer, and none writes one of
  the nineteen argument arrays; so the region is entered with every argument as launched, and the three
  arrays the kernel reads beside `x`, `h` and `c` hold the operations' results. A window's block at a grid
  point is the part of its array, as the region finds it, that the window's index map selects there. A run
  that ends with every staged array at what the proof data computes and every other unscoped buffer as the
  region found it leaves all nineteen arguments unchanged: three are input windows' arrays, sixteen are
  staged by no window.
-/
import proofs.«169127_j32598801776688_1_alg».proof.Proof.Gen.KernelIdeal.Launch
import proofs.«169127_j32598801776688_1_alg».proof.Proof.Gen.KernelIdeal.Skeleton
import proofs.«169127_j32598801776688_1_alg».proof.Proof.Gen.KernelIdeal.Points
import Idealize.ShloMosaic.Lib.Pipeline.FrameBody
import Idealize.ShloMosaic.Lib.Ring
import Idealize.ShloMosaic.Lib.Tactic

-- membership in a rectangle of these extents is decided by a structural look that recurses once per coordinate
set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the twelve host operations. -/
abbrev V (c : Dev nD) (b : Ref sig .tc) : Buf (Elt F) ((c : Thread nD τ).loc b) := StableHlo.after hostOps0 (fun b => m (c, b)) b

/-- None of the twelve host operations allocates a buffer. -/
theorem hostOps0_fresh : (hostOps0 : List (HloOp τ sig (Elt F))).Forall fun op => op.fresh = ∅ := by
  simp only [List.Forall]; repeat' constructor

/-- The program up to the region: the host operations, then the region entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the twelve host operations writes argument 0: the kernel's region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 1: the kernel's region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 2: the kernel's region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 3: the kernel's region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 4: the kernel's region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 5: the kernel's region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 6: the kernel's region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 7: the kernel's region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 8: the kernel's region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 9: the kernel's region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 10: the kernel's region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 11: the kernel's region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 12: the kernel's region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 13: the kernel's region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 14: the kernel's region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 15: the kernel's region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 16: the kernel's region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 17: the kernel's region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- None of the twelve host operations writes argument 18: the kernel's region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every grid point, fetched there or not
    (where it is not fetched the block index has not moved), for any proof data over the region-entry arrays
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds the window's block at every grid point, fetched there or not
    (where it is not fetched the block index has not moved), for any proof data over the region-entry arrays
    whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds the window's block at every grid point, fetched there or not
    (where it is not fetched the block index has not moved), for any proof data over the region-entry arrays
    whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds the window's block at every grid point, fetched there or not
    (where it is not fetched the block index has not moved), for any proof data over the region-entry arrays
    whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds the window's block at every grid point, fetched there or not
    (where it is not fetched the block index has not moved), for any proof data over the region-entry arrays
    whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds the window's block at every grid point, fetched there or not
    (where it is not fetched the block index has not moved), for any proof data over the region-entry arrays
    whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run -/

/-- For any proof data over the region-entry arrays, a final state with every staged array at what the proof data
    computes and every other unscoped buffer as the region found it has the nineteen arguments as launched:
    `x`, `h`, `c` are input windows' arrays, the sixteen others no window's. -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩

/-- So a run to such a final state is a run that leaves the nineteen arguments as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => kept_of m dats hA r h c) h

end Cert.KernelIdeal.Fr

end
-- ==== Proof.FrameIdealB.lean ====
/-
  The kernel body's triple.

  On eight whole staging buffers — `x`'s, `h`'s and `c`'s blocks of 128 rows, the two fused weight matrices,
  the fused bias row, and the two output blocks at any contents — the body loads its six inputs whole, loads
  each output buffer (the values are not used), and stores one whole block into each: the new hidden values
  into the first, the new cell values into the second. So it ends with the six inputs as they were and each
  output buffer at the one stored block, a pure function of the six inputs.
-/
import proofs.«169127_j32598801776688_1_alg».proof.Proof.Gen.KernelIdeal.Skeleton
import proofs.«169127_j32598801776688_1_alg».proof.Proof.Gen.KernelIdeal.Launch
import Idealize.ShloMosaic.Lib.Pipeline.FrameBody
import Idealize.ShloMosaic.Lib.Ring
import Idealize.ShloMosaic.Lib.Tactic

-- membership in a rectangle of these extents is decided by a structural look that recurses once per coordinate
set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: three whole rectangles -/

/-- A whole block of 128 rows. -/
abbrev rB : Rect S128x1024 := Rect.unit (s := S128x1024) ![0, 0] S128x1024.size inb_S128x1024_S128x1024_0_0
/-- A whole fused weight matrix. -/
abbrev rW : Rect S1024x4096 := Rect.unit (s := S1024x4096) ![0, 0] S1024x4096.size inb_S1024x4096_S1024x4096_0_0
/-- The whole fused bias row. -/
abbrev rV : Rect S1x4096 := Rect.unit (s := S1x4096) ![0, 0] S1x4096.size inb_S1x4096_S1x4096_0_0

/-! ## What the body leaves in each output buffer -/

/-- The first output buffer after the body: its one store, the new hidden values of the block. -/
def out0_6 (x0 x1 x2 : Vec F S128x1024 .f32) (x3 x4 : Vec F S1024x4096 .bf16) (x5 : Vec F S1x4096 .f32) : Vec F S128x1024 .f32 :=
  View.canon [⟨rB, k0_pay3 (View.ld x0 rB) (View.ld x1 rB) (View.ld x3 rW) (View.ld x4 rW) (View.ld x5 rV) (View.ld x2 rB)⟩]

/-- The second output buffer after the body: its one store, the new cell values of the block. -/
def out0_7 (x0 x1 x2 : Vec F S128x1024 .f32) (x3 x4 : Vec F S1024x4096 .bf16) (x5 : Vec F S1x4096 .f32) : Vec F S128x1024 .f32 :=
  View.canon [⟨rB, k0_pay2 (View.ld x0 rB) (View.ld x1 rB) (View.ld x3 rW) (View.ld x4 rW) (View.ld x5 rV) (View.ld x2 rB)⟩]

/-- One whole-block store covers the buffer. -/
theorem cover0 (p0 : Vec F S128x1024 .f32) (y : S128x1024.Idx) :
    ∃ pc ∈ ([⟨rB, p0⟩] : List (View.Piece (Elt F) S128x1024 .f32)), y ∈ pc.1.set :=
  View.cover_of_tiled [⟨rB, p0⟩] S128x1024.size (by rfl) y

/-! ## The triple -/

set_option maxHeartbeats 4000000 in
/-- The body on whole staging buffers, the inputs' at contents `x0 … x5` and the outputs' at anything, runs to the
    continuation holding the inputs' as they were and the outputs' at `out0_6` and `out0_7` of the inputs'. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (x0 x1 x2 : Vec F S128x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

end Cert.KernelIdeal.Fr

end
-- ==== Proof.FrameIdealC.lean ====
/-
  The kernel's region: proof data, the body at a grid point, the run, and the frame.

  At grid point `t` the six input windows' current buffers hold their blocks (rows `128 t … 128 t + 127` of
  `x`, `h` and `c`; the two fused weight matrices and the fused bias row whole, fetched at the first point and
  not again, their block index never moving), and the two output buffers hold anything. The body leaves the
  inputs in place and each output buffer at its one stored block, which the pipeline writes back at every
  point. Nothing is carried from one point to the next, the kernel owes no signal, and it touches none of the
  core's other scoped state. With the body's triple at every point the library's frame run applies: every
  weakly fair execution ends, without a fault, with each staged array at what the proof data computes and every
  other unscoped buffer as the region found it; the nineteen arguments are among the latter or are input
  windows' arrays, so they end as launched.
-/
import proofs.«169127_j32598801776688_1_alg».proof.Proof.FrameIdealA
import proofs.«169127_j32598801776688_1_alg».proof.Proof.FrameIdealB

-- membership in a rectangle of these extents is decided by a structural look that recurses once per coordinate
set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them; after the body at point
    `t` each input's buffer at its block and each output's at its stored block of the input blocks; the
    invariant the core's other scoped state untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents (the definition projected, never unfolded further). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and
    the core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes
-- unfolding plain definitions in a metavariable's type
set_option backward.isDefEq.respectTransparency.types false in
/-- From any memory with zero counters every weakly fair execution of the program terminates, and every final
    state has every staged array at what the library computes from the proof data and every other unscoped
    buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every weakly fair execution terminates, without a fault, with the nineteen arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Fr

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Spec.lean ====
/-
  One step of a long short-term memory cell, as mathematics over the extended reals.

  A batch of 4096 rows; every row has 1024 inputs `x`, 1024 hidden values `h` and 1024 cell values `c`.
  Each of the four gates (input, forget, candidate, output) has an input weight matrix `Wx[j, k]`, a hidden
  weight matrix `Wh[j, k]` (row `j` is the unit, column `k` the feature) and two bias vectors `bx[j]`, `bh[j]`.
  The gate's pre-activation at row `r`, unit `j` is
      pre r j = (∑ k, x[r, k] * Wx[j, k]  +  ∑ k, h[r, k] * Wh[j, k])  +  (bx[j] + bh[j]),
  and the step is
      c' = σ(pre_f) * c + σ(pre_i) * tanh(pre_g),        h' = σ(pre_o) * tanh(c'),
  with σ the logistic function `1 / (1 + e^(-t))`.

  The four summands of a pre-activation may be grouped in two ways: the two products first and the two biases
  first, or product, bias, product, bias from left to right. Addition of extended reals is commutative and
  associative (also at the infinities), so the two groupings agree with no finiteness assumption.
-/
import Idealize.ShloMosaic.PureOps.Ideal
import Idealize.ShloMosaic.Lib.ValueIdx

noncomputable section

open scoped BigOperators

namespace Cert.Lstm

open Idealize.ShloMosaic Idealize.ShloMosaic.ValueIdx

/-- batch × features -/
abbrev SB : Shape := ⟨2, ![4096, 1024]⟩
/-- a gate's weight matrix: units × features -/
abbrev SW : Shape := ⟨2, ![1024, 1024]⟩
/-- a gate's bias vector -/
abbrev Sv : Shape := ⟨1, ![1024]⟩

/-- Column `q` of gate `g` when the four gates' columns are laid side by side (input, forget, candidate,
    output): `1024 g + q`. -/
def col (g : Fin 4) (q : Fin 1024) : Fin 4096 := ⟨g.val * 1024 + q.val, by have := g.isLt; have := q.isLt; omega⟩

theorem col_val (g : Fin 4) (q : Fin 1024) : (col g q).val = g.val * 1024 + q.val := rfl

/-- The nineteen arrays of one step, in the order the programs take them. -/
structure Args where
  x : SB.Idx → EReal
  h : SB.Idx → EReal
  c : SB.Idx → EReal
  Wix : SW.Idx → EReal
  bix : Sv.Idx → EReal
  Wfx : SW.Idx → EReal
  bfx : Sv.Idx → EReal
  Wgx : SW.Idx → EReal
  bgx : Sv.Idx → EReal
  Wox : SW.Idx → EReal
  box : Sv.Idx → EReal
  Wih : SW.Idx → EReal
  bih : Sv.Idx → EReal
  Wfh : SW.Idx → EReal
  bfh : Sv.Idx → EReal
  Wgh : SW.Idx → EReal
  bgh : Sv.Idx → EReal
  Woh : SW.Idx → EReal
  boh : Sv.Idx → EReal

/-- The row-by-row product with a weight matrix read transposed: `∑ k, u[r, k] * W[j, k]`. -/
def lin (u : SB.Idx → EReal) (W : SW.Idx → EReal) (r : Fin 4096) (j : Fin 1024) : EReal :=
  ∑ k : Fin 1024, u (ix2 r k) * W (ix2 j k)

/-- A gate's pre-activation at row `r`, unit `j`: the two products, then the two biases. -/
def pre (x h : SB.Idx → EReal) (Wx : SW.Idx → EReal) (bx : Sv.Idx → EReal) (Wh : SW.Idx → EReal) (bh : Sv.Idx → EReal)
    (r : Fin 4096) (j : Fin 1024) : EReal :=
  (lin x Wx r j + lin h Wh r j) + (bx (ix1 j) + bh (ix1 j))

/-- Product, bias, product, bias summed from the left is the same pre-activation: addition of extended reals
    is commutative and associative. -/
theorem pre_eq_left (x h : SB.Idx → EReal) (Wx : SW.Idx → EReal) (bx : Sv.Idx → EReal) (Wh : SW.Idx → EReal)
    (bh : Sv.Idx → EReal) (r : Fin 4096) (j : Fin 1024) :
    ((lin x Wx r j + bx (ix1 j)) + lin h Wh r j) + bh (ix1 j) = pre x h Wx bx Wh bh r j := by
  unfold pre
  rw [add_assoc (lin x Wx r j + bx (ix1 j)), add_add_add_comm]

/-- The new cell value at row `r`, unit `j`. -/
def cNewAt (a : Args) (r : Fin 4096) (j : Fin 1024) : EReal :=
  Ideal.logistic (pre a.x a.h a.Wfx a.bfx a.Wfh a.bfh r j) * a.c (ix2 r j)
    + Ideal.logistic (pre a.x a.h a.Wix a.bix a.Wih a.bih r j) * Ideal.tanh (pre a.x a.h a.Wgx a.bgx a.Wgh a.bgh r j)

/-- The new hidden value at row `r`, unit `j`. -/
def hNewAt (a : Args) (r : Fin 4096) (j : Fin 1024) : EReal :=
  Ideal.logistic (pre a.x a.h a.Wox a.box a.Woh a.boh r j) * Ideal.tanh (cNewAt a r j)

/-- The new cell array. -/
def cNew (a : Args) : SB.Idx → EReal := fun i => cNewAt a (i 0) (i 1)

/-- The new hidden array. -/
def hNew (a : Args) : SB.Idx → EReal := fun i => hNewAt a (i 0) (i 1)

theorem cNew_ix2 (a : Args) (r : Fin 4096) (j : Fin 1024) : cNew a (ix2 r j) = cNewAt a r j := rfl
theorem hNew_ix2 (a : Args) (r : Fin 4096) (j : Fin 1024) : hNew a (ix2 r j) = hNewAt a r j := rfl

end Cert.Lstm

end
-- ==== Proof.KPay.lean ====
/-
  The body of the fused kernel at one block of 128 rows, read at an index.

  The body multiplies the block's rows of `x` and of `h` by the two fused weight matrices (1024 features by
  4096 columns: the four gates' columns side by side), adds the fused bias row, and cuts the 4096 columns
  into the four gates. At row `p` of the block and column `n` of the fused layout the sum is `gateK`; the
  new cell value and the new hidden value at `(p, q)` are the gate formulas over columns `q`, `1024 + q`,
  `2048 + q`, `3072 + q`.
-/
import proofs.«169127_j32598801776688_1_alg».proof.Proof.Gen.KernelIdeal.Skeleton
import proofs.«169127_j32598801776688_1_alg».proof.Proof.LibDot2
import proofs.«169127_j32598801776688_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx Idealize.SL.Sem Cert.KernelIdeal Cert.KernelIdeal.Gen Cert.Lstm

/-- The fused pre-activation at row `p` of a block and fused column `n`: the block's row of `x` against column
    `n` of the fused input weights, the block's row of `h` against column `n` of the fused hidden weights, and
    entry `n` of the fused bias row. -/
def gateK (v0 v2 : Vec Ideal S128x1024 .f32) (v4 v7 : Vec Ideal S1024x4096 .bf16) (v11 : Vec Ideal S1x4096 .f32)
    (p : Fin 128) (n : Fin 4096) : EReal :=
  ((∑ k : Fin 1024, (v0 (ix2 p k) : EReal) * (v4 (ix2 k n) : EReal))
    + ∑ k : Fin 1024, (v2 (ix2 p k) : EReal) * (v7 (ix2 k n) : EReal)) + (v11 (ix2 0 n) : EReal)

variable (v0 v2 : Vec Ideal S128x1024 .f32) (v4 v7 : Vec Ideal S1024x4096 .bf16) (v11 : Vec Ideal S1x4096 .f32)
  (v23 : Vec Ideal S128x1024 .f32)

/-- The block's product into the all-zero accumulator at `(p, n)`: the sum over the 1024 features. -/
theorem mm_apply (l : FVec Ideal S128x1024 .bf16) (r : FVec Ideal S1024x4096 .bf16) (p : Fin 128) (n : Fin 4096) :
    matmul (F := Ideal) dot_S128x1024_S1024x4096_S128x4096_1_0_0_1_n_n none l r
        (constant (F := Ideal) S128x4096 .f32 0x00000000#32) (ix2 p n)
      = ∑ k : Fin 1024, l (ix2 p k) * r (ix2 k n) := by
  show FloatOps.matmul (Dot2.mmDims 128 1024 4096 dot_S128x1024_S1024x4096_S128x4096_1_0_0_1_n_n_wf) none l r
        (constant (F := Ideal) ⟨2, ![128, 4096]⟩ .f32 0x00000000#32) (ix2 p n) = _
  exact Dot2.matmul_zero_mm_apply _ none l r p n

/-- A block of 1024 columns cut out of the 4096 at column offset `off`: entry `(p, q)` of the cut is entry
    `(p, c)` of the whole, `c = off + q`. -/
theorem slice_col {α : Type} (x : S128x4096.Idx → α) (off : Nat) (h : S128x4096.Slices ![0, off] S128x1024)
    (p : Fin 128) (q : Fin 1024) (c : Fin 4096) (hc : c.val = off + q.val) :
    extractStridedSlice S128x1024 ![0, off] x h (ix2 p q) = x (ix2 p c) := by
  refine extractStridedSlice_apply ![0, off] x h (ix2 p q) (ix2 p c) fun a => ?_
  match a with
  | ⟨0, _⟩ => show p.val = 0 + p.val; omega
  | ⟨1, _⟩ => show c.val = off + q.val; exact hc

/-- The fused sum at `(p, n)`. -/
theorem pay1_apply (p : Fin 128) (n : Fin 4096) :
    k0_pay1 (F := Ideal) v0 v2 v4 v7 v11 (ix2 p n) = gateK v0 v2 v4 v7 v11 p n := by
  unfold k0_pay1 gateK
  rw [shapeCast_self, shapeCast_self, shapeCast_self]
  show FloatOps.addf (FloatOps.addf (matmul (F := Ideal) _ none _ _ _ (ix2 p n)) (matmul (F := Ideal) _ none _ _ _ (ix2 p n)))
      (broadcastTo S128x4096 v11 broadcasts_S1x4096_S128x4096 (ix2 p n)) = _
  rw [mm_apply, mm_apply, broadcastTo_1b_ab_apply]
  simp only [truncf, Ideal.addf_def, Ideal.truncf_def]

/-- The new cell value of the block at `(p, q)`. -/
theorem pay2_apply (p : Fin 128) (q : Fin 1024) :
    k0_pay2 (F := Ideal) v0 v2 v4 v7 v11 v23 (ix2 p q)
      = Ideal.logistic (gateK v0 v2 v4 v7 v11 p (col 1 q)) * (v23 (ix2 p q) : EReal)
        + Ideal.logistic (gateK v0 v2 v4 v7 v11 p (col 0 q)) * Ideal.tanh (gateK v0 v2 v4 v7 v11 p (col 2 q)) := by
  unfold k0_pay2
  simp only [Idealize.ShloMosaic.addf, Idealize.ShloMosaic.mulf, Idealize.ShloMosaic.logistic, Idealize.ShloMosaic.tanh,
    Ideal.addf_def, Ideal.mulf_def, Ideal.logistic_def, Ideal.tanh_def]
  rw [slice_col _ 0 _ p q (col 0 q) rfl, slice_col _ 1024 _ p q (col 1 q) rfl, slice_col _ 2048 _ p q (col 2 q) rfl,
    pay1_apply, pay1_apply, pay1_apply]

/-- The new hidden value of the block at `(p, q)`. -/
theorem pay3_apply (p : Fin 128) (q : Fin 1024) :
    k0_pay3 (F := Ideal) v0 v2 v4 v7 v11 v23 (ix2 p q)
      = Ideal.logistic (gateK v0 v2 v4 v7 v11 p (col 3 q))
        * Ideal.tanh (k0_pay2 (F := Ideal) v0 v2 v4 v7 v11 v23 (ix2 p q)) := by
  unfold k0_pay3
  simp only [Idealize.ShloMosaic.mulf, Idealize.ShloMosaic.logistic, Idealize.ShloMosaic.tanh,
    Ideal.mulf_def, Ideal.logistic_def, Ideal.tanh_def]
  rw [slice_col _ 3072 _ p q (col 3 q) rfl, pay1_apply]

end Cert.KernelIdeal.Pay

end
-- ==== Proof.KHost.lean ====
/-
  The three arrays the host prepares for the kernel, read at an index.

  Before the kernel runs, the four input weight matrices are stacked along the rows (4096 by 1024), the
  stack is transposed (1024 by 4096) and its entries change float format, which at the ideal instance is the
  identity; the same for the four hidden weight matrices; and the four sums of an input bias and a hidden
  bias are laid end to end and given a leading axis of size one (1 by 4096). So at feature `k` and fused column
  `1024 g + q` the fused input weights hold gate `g`'s input weight `W[q, k]`, the fused hidden weights gate
  `g`'s hidden weight `W[q, k]`, and the fused bias row holds `bx[q] + bh[q]` of gate `g`.
-/
import proofs.«169127_j32598801776688_1_alg».proof.Proof.Gen.KernelIdeal.Launch
import proofs.«169127_j32598801776688_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostPre

open Idealize.ShloMosaic Idealize.ShloMosaic.TcCoe Idealize.ShloMosaic.ValueIdx Idealize.SL.Sem
open Cert.KernelIdeal Cert.KernelIdeal.Gen Cert.Lstm

variable (m : (ℓ : Loc nD τ sig) → Buf (Elt Ideal) ℓ)

/-- The nineteen argument arrays of core `c`, as launched. -/
def argsOf (c : Dev nD) : Args where
  x := m ((c : Thread nD τ).loc main_arg0)
  h := m ((c : Thread nD τ).loc main_arg1)
  c := m ((c : Thread nD τ).loc main_arg2)
  Wix := m ((c : Thread nD τ).loc main_arg3)
  bix := m ((c : Thread nD τ).loc main_arg4)
  Wfx := m ((c : Thread nD τ).loc main_arg5)
  bfx := m ((c : Thread nD τ).loc main_arg6)
  Wgx := m ((c : Thread nD τ).loc main_arg7)
  bgx := m ((c : Thread nD τ).loc main_arg8)
  Wox := m ((c : Thread nD τ).loc main_arg9)
  box := m ((c : Thread nD τ).loc main_arg10)
  Wih := m ((c : Thread nD τ).loc main_arg11)
  bih := m ((c : Thread nD τ).loc main_arg12)
  Wfh := m ((c : Thread nD τ).loc main_arg13)
  bfh := m ((c : Thread nD τ).loc main_arg14)
  Wgh := m ((c : Thread nD τ).loc main_arg15)
  bgh := m ((c : Thread nD τ).loc main_arg16)
  Woh := m ((c : Thread nD τ).loc main_arg17)
  boh := m ((c : Thread nD τ).loc main_arg18)

/-- Core `c`'s buffers after the host operations that come before the kernel. -/
abbrev Vh (c : Dev nD) (b : Ref sig .tc) : Buf (Elt Ideal) ((c : Thread nD τ).loc b) :=
  StableHlo.after (hostOps0 (F := Ideal)) (fun b => m (c, b)) b

/-! ## Four pieces of one shape laid end to end, read at an index

Position `1024 g + q` along the axis falls in piece `g`, at offset `q`: the three pieces before it take up
`1024 g` positions. -/

/-- Off the stacking axis, an index of a piece and the index of the stack above it have the same coordinates. -/
theorem off_axis2 (r : Fin 4096) (q k : Fin 1024) :
    ∀ b : Fin S1024x1024.rank, b.cast (rfl : S1024x1024.rank = S4096x1024.rank) ≠ (0 : Fin S4096x1024.rank) →
      ((ix2 q k : S1024x1024.Idx) b).val = ((ix2 r k : S4096x1024.Idx) (b.cast rfl)).val := fun b hb =>
  match b, hb with
  | ⟨0, _⟩, hb => absurd rfl hb
  | ⟨1, _⟩, _ => rfl

/-- Four square matrices stacked along the rows, read at row `1024 g + q`: matrix `g` at row `q`. -/
theorem stack2_apply (A0 A1 A2 A3 : S1024x1024.Idx → EReal)
    (h : Shape.Concatenates (([⟨S1024x1024, A0⟩, ⟨S1024x1024, A1⟩, ⟨S1024x1024, A2⟩, ⟨S1024x1024, A3⟩] :
      List ((s : Shape) × (s.Idx → EReal))).map (·.1)) S4096x1024 0)
    (g : Fin 4) (q k : Fin 1024) :
    concatenate S4096x1024 0 [⟨S1024x1024, A0⟩, ⟨S1024x1024, A1⟩, ⟨S1024x1024, A2⟩, ⟨S1024x1024, A3⟩] h (ix2 (col g q) k)
      = (![A0, A1, A2, A3] g) (ix2 q k) :=
  concatenate_apply_piece (0 : Fin S4096x1024.rank) _ h _ g.val (by show g.val < 4; exact g.isLt) S1024x1024 (![A0, A1, A2, A3] g)
    (by fin_cases g <;> rfl) rfl (g.val * 1024) (by fin_cases g <;> rfl) (ix2 q k) (off_axis2 _ q k)
    (by show g.val * 1024 + q.val = g.val * 1024 + q.val; rfl)

/-- A vector has no axis off the stacking axis. -/
theorem off_axis1 (r : Fin 4096) (q : Fin 1024) :
    ∀ b : Fin S1024.rank, b.cast (rfl : S1024.rank = S4096.rank) ≠ (0 : Fin S4096.rank) →
      ((ix1 q : S1024.Idx) b).val = ((ix1 r : S4096.Idx) (b.cast rfl)).val := fun b hb =>
  match b, hb with
  | ⟨0, _⟩, hb => absurd rfl hb

/-- Four vectors laid end to end, read at position `1024 g + q`: vector `g` at `q`. -/
theorem stack1_apply (v0 v1 v2 v3 : S1024.Idx → EReal)
    (h : Shape.Concatenates (([⟨S1024, v0⟩, ⟨S1024, v1⟩, ⟨S1024, v2⟩, ⟨S1024, v3⟩] :
      List ((s : Shape) × (s.Idx → EReal))).map (·.1)) S4096 0)
    (g : Fin 4) (q : Fin 1024) :
    concatenate S4096 0 [⟨S1024, v0⟩, ⟨S1024, v1⟩, ⟨S1024, v2⟩, ⟨S1024, v3⟩] h (ix1 (col g q))
      = (![v0, v1, v2, v3] g) (ix1 q) :=
  concatenate_apply_piece (0 : Fin S4096.rank) _ h _ g.val (by show g.val < 4; exact g.isLt) S1024 (![v0, v1, v2, v3] g)
    (by fin_cases g <;> rfl) rfl (g.val * 1024) (by fin_cases g <;> rfl) (ix1 q) (off_axis1 _ q)
    (by show g.val * 1024 + q.val = g.val * 1024 + q.val; rfl)

/-- A vector given a leading axis of size one reads, at `(0, j)`, the vector at `j`: the two indices have the same
    row-major position. -/
theorem addUnit1_apply (x : S4096.Idx → EReal) (h : S4096.ShapeCasts S1x4096) (u : Fin 1) (j : Fin 4096) :
    shapeCast S1x4096 x h (ix2 u j) = x (ix1 j) :=
  shapeCast_apply x h _ _ (by
    have hu : u.val = 0 := by omega
    rw [Shape.rowMajor_val_two, Shape.rowMajor_val_one]
    show j.val = u.val * 4096 + j.val
    rw [hu, Nat.zero_mul, Nat.zero_add])

/-! ## The three fused arrays as terms of the argument arrays -/

/-- Four matrices stacked along the rows, the stack transposed, its entries narrowed (the identity on extended reals):
    at `(k, 1024 g + q)` matrix `g` at `(q, k)`. -/
theorem fusedW_apply (A0 A1 A2 A3 : S1024x1024.Idx → EReal) (g : Fin 4) (k q : Fin 1024) :
    (truncf (F := Ideal) .bf16 (transpose S1024x4096 [1, 0]
        (concatenate S4096x1024 0 [⟨S1024x1024, A0⟩, ⟨S1024x1024, A1⟩, ⟨S1024x1024, A2⟩, ⟨S1024x1024, A3⟩]
          concatenates_S1024x1024_S1024x1024_S1024x1024_S1024x1024_S4096x1024_d0)
        transposes_S4096x1024_S1024x4096_1_0) bitsLt_bf16_f32 : S1024x4096.Idx → EReal) (ix2 k (col g q))
      = (![A0, A1, A2, A3] g) (ix2 q k) :=
  (transpose_ix2_apply
      (concatenate S4096x1024 0 [⟨S1024x1024, A0⟩, ⟨S1024x1024, A1⟩, ⟨S1024x1024, A2⟩, ⟨S1024x1024, A3⟩]
        concatenates_S1024x1024_S1024x1024_S1024x1024_S1024x1024_S4096x1024_d0)
      transposes_S4096x1024_S1024x4096_1_0 k (col g q)).trans
    (stack2_apply A0 A1 A2 A3 concatenates_S1024x1024_S1024x1024_S1024x1024_S1024x1024_S4096x1024_d0 g q k)

/-- The fused input weights: the stack of the four input weight matrices, transposed and narrowed. -/
theorem v3_term (c : Dev nD) :
    (Vh m c main_v3 : S1024x4096.Idx → EReal)
      = truncf (F := Ideal) .bf16 (transpose S1024x4096 [1, 0]
          (concatenate S4096x1024 0
            [⟨S1024x1024, (argsOf m c).Wix⟩, ⟨S1024x1024, (argsOf m c).Wfx⟩, ⟨S1024x1024, (argsOf m c).Wgx⟩, ⟨S1024x1024, (argsOf m c).Wox⟩]
            concatenates_S1024x1024_S1024x1024_S1024x1024_S1024x1024_S4096x1024_d0)
          transposes_S4096x1024_S1024x4096_1_0) bitsLt_bf16_f32 := by
  dsimp only [Vh, Gen.hostOps0]
  after_results
  rfl

/-- The fused hidden weights: the stack of the four hidden weight matrices, transposed and narrowed. -/
theorem v5_term (c : Dev nD) :
    (Vh m c main_v5 : S1024x4096.Idx → EReal)
      = truncf (F := Ideal) .bf16 (transpose S1024x4096 [1, 0]
          (concatenate S4096x1024 0
            [⟨S1024x1024, (argsOf m c).Wih⟩, ⟨S1024x1024, (argsOf m c).Wfh⟩, ⟨S1024x1024, (argsOf m c).Wgh⟩, ⟨S1024x1024, (argsOf m c).Woh⟩]
            concatenates_S1024x1024_S1024x1024_S1024x1024_S1024x1024_S4096x1024_d0)
          transposes_S4096x1024_S1024x4096_1_0) bitsLt_bf16_f32 := by
  dsimp only [Vh, Gen.hostOps0]
  after_results
  rfl

/-- The fused bias row: the four sums of an input bias and a hidden bias laid end to end, with a leading unit axis. -/
theorem v11_term (c : Dev nD) :
    (Vh m c main_v11 : S1x4096.Idx → EReal)
      = shapeCast S1x4096
          (concatenate S4096 0
            [⟨S1024, addf (F := Ideal) (φ := .f32) (argsOf m c).bix (argsOf m c).bih⟩,
             ⟨S1024, addf (F := Ideal) (φ := .f32) (argsOf m c).bfx (argsOf m c).bfh⟩,
             ⟨S1024, addf (F := Ideal) (φ := .f32) (argsOf m c).bgx (argsOf m c).bgh⟩,
             ⟨S1024, addf (F := Ideal) (φ := .f32) (argsOf m c).box (argsOf m c).boh⟩]
            concatenates_S1024_S1024_S1024_S1024_S4096_d0)
          shapeCasts_S4096_S1x4096 := by
  dsimp only [Vh, Gen.hostOps0]
  after_results
  rfl

/-- Four sums of two vectors laid end to end under a leading unit axis: at `(0, 1024 g + q)` the `g`-th sum at `q`. -/
theorem fusedB_apply (x0 h0 x1 h1 x2 h2 x3 h3 : S1024.Idx → EReal) (g : Fin 4) (q : Fin 1024) :
    (shapeCast S1x4096
        (concatenate S4096 0
          [⟨S1024, addf (F := Ideal) (φ := .f32) x0 h0⟩, ⟨S1024, addf (F := Ideal) (φ := .f32) x1 h1⟩,
           ⟨S1024, addf (F := Ideal) (φ := .f32) x2 h2⟩, ⟨S1024, addf (F := Ideal) (φ := .f32) x3 h3⟩]
          concatenates_S1024_S1024_S1024_S1024_S4096_d0)
        shapeCasts_S4096_S1x4096 : S1x4096.Idx → EReal) (ix2 0 (col g q))
      = (![x0, x1, x2, x3] g) (ix1 q) + (![h0, h1, h2, h3] g) (ix1 q) := by
  refine (addUnit1_apply _ shapeCasts_S4096_S1x4096 0 (col g q)).trans ?_
  refine (stack1_apply _ _ _ _ _ g q).trans ?_
  fin_cases g <;> rfl

/-! ## The fused input weights (`main_v3`) -/

theorem wx_0 (c : Dev nD) (k q : Fin 1024) :
    (Vh m c main_v3 : S1024x4096.Idx → EReal) (ix2 k (col 0 q)) = (argsOf m c).Wix (ix2 q k) :=
  (congrFun (v3_term m c) _).trans (fusedW_apply _ _ _ _ 0 k q)
theorem wx_1 (c : Dev nD) (k q : Fin 1024) :
    (Vh m c main_v3 : S1024x4096.Idx → EReal) (ix2 k (col 1 q)) = (argsOf m c).Wfx (ix2 q k) :=
  (congrFun (v3_term m c) _).trans (fusedW_apply _ _ _ _ 1 k q)
theorem wx_2 (c : Dev nD) (k q : Fin 1024) :
    (Vh m c main_v3 : S1024x4096.Idx → EReal) (ix2 k (col 2 q)) = (argsOf m c).Wgx (ix2 q k) :=
  (congrFun (v3_term m c) _).trans (fusedW_apply _ _ _ _ 2 k q)
theorem wx_3 (c : Dev nD) (k q : Fin 1024) :
    (Vh m c main_v3 : S1024x4096.Idx → EReal) (ix2 k (col 3 q)) = (argsOf m c).Wox (ix2 q k) :=
  (congrFun (v3_term m c) _).trans (fusedW_apply _ _ _ _ 3 k q)

/-! ## The fused hidden weights (`main_v5`) -/

theorem wh_0 (c : Dev nD) (k q : Fin 1024) :
    (Vh m c main_v5 : S1024x4096.Idx → EReal) (ix2 k (col 0 q)) = (argsOf m c).Wih (ix2 q k) :=
  (congrFun (v5_term m c) _).trans (fusedW_apply _ _ _ _ 0 k q)
theorem wh_1 (c : Dev nD) (k q : Fin 1024) :
    (Vh m c main_v5 : S1024x4096.Idx → EReal) (ix2 k (col 1 q)) = (argsOf m c).Wfh (ix2 q k) :=
  (congrFun (v5_term m c) _).trans (fusedW_apply _ _ _ _ 1 k q)
theorem wh_2 (c : Dev nD) (k q : Fin 1024) :
    (Vh m c main_v5 : S1024x4096.Idx → EReal) (ix2 k (col 2 q)) = (argsOf m c).Wgh (ix2 q k) :=
  (congrFun (v5_term m c) _).trans (fusedW_apply _ _ _ _ 2 k q)
theorem wh_3 (c : Dev nD) (k q : Fin 1024) :
    (Vh m c main_v5 : S1024x4096.Idx → EReal) (ix2 k (col 3 q)) = (argsOf m c).Woh (ix2 q k) :=
  (congrFun (v5_term m c) _).trans (fusedW_apply _ _ _ _ 3 k q)

/-! ## The fused bias row (`main_v11`) -/

theorem b_0 (c : Dev nD) (q : Fin 1024) :
    (Vh m c main_v11 : S1x4096.Idx → EReal) (ix2 0 (col 0 q)) = (argsOf m c).bix (ix1 q) + (argsOf m c).bih (ix1 q) :=
  (congrFun (v11_term m c) _).trans (fusedB_apply _ _ _ _ _ _ _ _ 0 q)
theorem b_1 (c : Dev nD) (q : Fin 1024) :
    (Vh m c main_v11 : S1x4096.Idx → EReal) (ix2 0 (col 1 q)) = (argsOf m c).bfx (ix1 q) + (argsOf m c).bfh (ix1 q) :=
  (congrFun (v11_term m c) _).trans (fusedB_apply _ _ _ _ _ _ _ _ 1 q)
theorem b_2 (c : Dev nD) (q : Fin 1024) :
    (Vh m c main_v11 : S1x4096.Idx → EReal) (ix2 0 (col 2 q)) = (argsOf m c).bgx (ix1 q) + (argsOf m c).bgh (ix1 q) :=
  (congrFun (v11_term m c) _).trans (fusedB_apply _ _ _ _ _ _ _ _ 2 q)
theorem b_3 (c : Dev nD) (q : Fin 1024) :
    (Vh m c main_v11 : S1x4096.Idx → EReal) (ix2 0 (col 3 q)) = (argsOf m c).box (ix1 q) + (argsOf m c).boh (ix1 q) :=
  (congrFun (v11_term m c) _).trans (fusedB_apply _ _ _ _ _ _ _ _ 3 q)

/-! ## The three batch arrays are as launched -/

/-- No host operation before the kernel writes an argument array: each of the twelve writes its own result. -/
theorem arg_kept (c : Dev nD) (r : Ref sig .tc)
    (hr : r ∉ [main_v0, main_v1, main_v2, main_v3, main_v4, main_v5, main_v6, main_v7, main_v8, main_v9, main_v10, main_v11]) :
    Vh m c r = m ((c : Thread nD τ).loc r) :=
  StableHlo.after_of_forall_not_mem (b := Proc.devRef .tc r) _ _ (List.forall_iff_forall_mem.mp (by
    simp only [hostOps0, List.Forall, StableHlo.unary_writes, StableHlo.binary_writes, StableHlo.reshape_writes,
      StableHlo.nary_writes, Finset.mem_singleton]
    simp only [List.mem_cons, List.not_mem_nil, or_false, not_or] at hr
    obtain ⟨h0, h1, h2, h3, h4, h5, h6, h7, h8, h9, h10, h11⟩ := hr
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6, StableHlo.devRef_ne_of_ne h7, StableHlo.devRef_ne_of_ne h8,
      StableHlo.devRef_ne_of_ne h9, StableHlo.devRef_ne_of_ne h10, StableHlo.devRef_ne_of_ne h11⟩))

theorem x_eq (c : Dev nD) : (Vh m c main_arg0 : S4096x1024.Idx → EReal) = (argsOf m c).x :=
  arg_kept m c main_arg0 (by decide)
theorem h_eq (c : Dev nD) : (Vh m c main_arg1 : S4096x1024.Idx → EReal) = (argsOf m c).h :=
  arg_kept m c main_arg1 (by decide)
theorem c_eq (c : Dev nD) : (Vh m c main_arg2 : S4096x1024.Idx → EReal) = (argsOf m c).c :=
  arg_kept m c main_arg2 (by decide)

end Cert.KernelIdeal.HostPre

end
-- ==== Proof.KValue.lean ====
/-
  The fused kernel's two result arrays, as functions of the nineteen arguments, at the ideal instance.

  The grid has 32 points; point `t` works on rows `128 t … 128 t + 127`. There the blocks of `x`, `h` and `c`
  are those rows of the arrays, and the two fused weight matrices and the fused bias row are staged whole. At
  row `p` of the block and fused column `1024 g + q` the fused sum is therefore gate `g`'s pre-activation at row
  `128 t + p`, unit `q`: the fused input weights hold `W_gx[q, k]` at `(k, 1024 g + q)`, the fused hidden weights
  `W_gh[q, k]`, the fused bias row `b_gx[q] + b_gh[q]`. So the block of new cell values the point stores is block
  `t` of `cNew`, the block of new hidden values block `t` of `hNew`; the 32 blocks tile the 4096 rows, so after
  the run the second result array is `cNew` and the first `hNew` of the arguments.
-/
import proofs.«169127_j32598801776688_1_alg».proof.Proof.FrameIdealC
import proofs.«169127_j32598801776688_1_alg».proof.Proof.KPay
import proofs.«169127_j32598801776688_1_alg».proof.Proof.KHost
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr Cert.KernelIdeal.Pay Cert.KernelIdeal.HostPre Cert.Lstm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the three batch inputs and the two outputs move one block of rows per
    point; the fused weights and the fused bias row stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of block `t` is a row of the batch. -/
theorem row_lt (t : Fin cfg0.N) (p : Fin 128) : 128 * t.val + p.val < 4096 := by
  have ht : t.val < 32 := lt_of_lt_of_eq t.isLt N_0
  have hp := p.isLt
  omega

/-! ## The windows' blocks read at an index -/

/-- Row `p` of `x`'s block at point `t` is row `128 t + p` of `x`. -/
theorem blk0 (c : Dev nD) (t : Fin cfg0.N) (p : Fin 128) (k : Fin 1024) :
    (iblk m c 0 t : S128x1024.Idx → EReal) (ix2 p k) = (argsOf m c).x (ix2 ⟨128 * t.val + p.val, row_lt t p⟩ k) := by
  obtain ⟨e00, e01, e10, e11, e20, e21, -⟩ := idx_facts t
  have e : ((cfg0.win 0).blk t).view.emb (ix2 p k) = ix2 ⟨128 * t.val + p.val, row_lt t p⟩ k := by
    funext a; apply Fin.ext
    match a with
    | ⟨0, _⟩ => show win0_0.index t (0 : Fin 2) * 128 + 1 * p.val = 128 * t.val + p.val; omega
    | ⟨1, _⟩ => show win0_0.index t (1 : Fin 2) * 1024 + 1 * k.val = k.val; omega
  show V m c main_arg0 (((cfg0.win 0).blk t).view.emb (ix2 p k)) = _
  rw [e, V_main_arg0]
  rfl
/-- Row `p` of `h`'s block at point `t` is row `128 t + p` of `h`. -/
theorem blk1 (c : Dev nD) (t : Fin cfg0.N) (p : Fin 128) (k : Fin 1024) :
    (iblk m c 1 t : S128x1024.Idx → EReal) (ix2 p k) = (argsOf m c).h (ix2 ⟨128 * t.val + p.val, row_lt t p⟩ k) := by
  obtain ⟨e00, e01, e10, e11, e20, e21, -⟩ := idx_facts t
  have e : ((cfg0.win 1).blk t).view.emb (ix2 p k) = ix2 ⟨128 * t.val + p.val, row_lt t p⟩ k := by
    funext a; apply Fin.ext
    match a with
    | ⟨0, _⟩ => show win0_1.index t (0 : Fin 2) * 128 + 1 * p.val = 128 * t.val + p.val; omega
    | ⟨1, _⟩ => show win0_1.index t (1 : Fin 2) * 1024 + 1 * k.val = k.val; omega
  show V m c main_arg1 (((cfg0.win 1).blk t).view.emb (ix2 p k)) = _
  rw [e, V_main_arg1]
  rfl
/-- Row `p` of `c`'s block at point `t` is row `128 t + p` of `c`. -/
theorem blk2 (c : Dev nD) (t : Fin cfg0.N) (p : Fin 128) (k : Fin 1024) :
    (iblk m c 2 t : S128x1024.Idx → EReal) (ix2 p k) = (argsOf m c).c (ix2 ⟨128 * t.val + p.val, row_lt t p⟩ k) := by
  obtain ⟨e00, e01, e10, e11, e20, e21, -⟩ := idx_facts t
  have e : ((cfg0.win 2).blk t).view.emb (ix2 p k) = ix2 ⟨128 * t.val + p.val, row_lt t p⟩ k := by
    funext a; apply Fin.ext
    match a with
    | ⟨0, _⟩ => show win0_2.index t (0 : Fin 2) * 128 + 1 * p.val = 128 * t.val + p.val; omega
    | ⟨1, _⟩ => show win0_2.index t (1 : Fin 2) * 1024 + 1 * k.val = k.val; omega
  show V m c main_arg2 (((cfg0.win 2).blk t).view.emb (ix2 p k)) = _
  rw [e, V_main_arg2]
  rfl
/-- The fused input weight matrix is staged whole: its block at any point is the array itself. -/
theorem blk3 (c : Dev nD) (t : Fin cfg0.N) (k : Fin 1024) (n : Fin 4096) :
    (iblk m c 3 t : S1024x4096.Idx → EReal) (ix2 k n) = (Vh m c main_v3 : S1024x4096.Idx → EReal) (ix2 k n) := by
  obtain ⟨-, -, -, -, -, -, e30, e31, e40, e41, e50, e51, -⟩ := idx_facts t
  have e : ((cfg0.win 3).blk t).view.emb (ix2 k n) = ix2 k n := by
    funext a; apply Fin.ext
    match a with
    | ⟨0, _⟩ => show win0_3.index t (0 : Fin 2) * 1024 + 1 * k.val = k.val; omega
    | ⟨1, _⟩ => show win0_3.index t (1 : Fin 2) * 4096 + 1 * n.val = n.val; omega
  show V m c main_v3 (((cfg0.win 3).blk t).view.emb (ix2 k n)) = _
  rw [e]
/-- The fused hidden weight matrix is staged whole: its block at any point is the array itself. -/
theorem blk4 (c : Dev nD) (t : Fin cfg0.N) (k : Fin 1024) (n : Fin 4096) :
    (iblk m c 4 t : S1024x4096.Idx → EReal) (ix2 k n) = (Vh m c main_v5 : S1024x4096.Idx → EReal) (ix2 k n) := by
  obtain ⟨-, -, -, -, -, -, e30, e31, e40, e41, e50, e51, -⟩ := idx_facts t
  have e : ((cfg0.win 4).blk t).view.emb (ix2 k n) = ix2 k n := by
    funext a; apply Fin.ext
    match a with
    | ⟨0, _⟩ => show win0_4.index t (0 : Fin 2) * 1024 + 1 * k.val = k.val; omega
    | ⟨1, _⟩ => show win0_4.index t (1 : Fin 2) * 4096 + 1 * n.val = n.val; omega
  show V m c main_v5 (((cfg0.win 4).blk t).view.emb (ix2 k n)) = _
  rw [e]
/-- The fused bias row is staged whole: its block at any point is the array itself. -/
theorem blk5 (c : Dev nD) (t : Fin cfg0.N) (n : Fin 4096) :
    (iblk m c 5 t : S1x4096.Idx → EReal) (ix2 0 n) = (Vh m c main_v11 : S1x4096.Idx → EReal) (ix2 0 n) := by
  obtain ⟨-, -, -, -, -, -, e30, e31, e40, e41, e50, e51, -⟩ := idx_facts t
  have e : ((cfg0.win 5).blk t).view.emb (ix2 (0 : Fin 1) n) = ix2 (0 : Fin 1) n := by
    funext a; apply Fin.ext
    match a with
    | ⟨0, _⟩ => show win0_5.index t (0 : Fin 2) * 1 + 1 * (0 : Fin 1).val = (0 : Fin 1).val; omega
    | ⟨1, _⟩ => show win0_5.index t (1 : Fin 2) * 4096 + 1 * n.val = n.val; omega
  show V m c main_v11 (((cfg0.win 5).blk t).view.emb (ix2 (0 : Fin 1) n)) = _
  rw [e]

/-! ## A fused sum is a gate's pre-activation -/

/-- Whenever a block's rows of `x` and `h` are row `r` of the arrays, column `n` of the fused weights holds row `q`
    of a gate's two weight matrices, and entry `n` of the fused bias row the sum of its two biases at `q`, the
    fused sum at `(p, n)` is that gate's pre-activation at `(r, q)`. -/
theorem gate_of (x h : SB.Idx → EReal) (Wx Wh : SW.Idx → EReal) (bx bh : Sv.Idx → EReal)
    (B0 B1 : Vec Ideal S128x1024 .f32) (B3 B4 : Vec Ideal S1024x4096 .bf16) (B5 : Vec Ideal S1x4096 .f32)
    (r : Fin 4096) (p : Fin 128) (n : Fin 4096) (q : Fin 1024)
    (h0 : ∀ k : Fin 1024, (B0 (ix2 p k) : EReal) = x (ix2 r k)) (h1 : ∀ k : Fin 1024, (B1 (ix2 p k) : EReal) = h (ix2 r k))
    (h3 : ∀ k : Fin 1024, (B3 (ix2 k n) : EReal) = Wx (ix2 q k)) (h4 : ∀ k : Fin 1024, (B4 (ix2 k n) : EReal) = Wh (ix2 q k))
    (h5 : (B5 (ix2 0 n) : EReal) = bx (ix1 q) + bh (ix1 q)) :
    gateK B0 B1 B3 B4 B5 p n = pre x h Wx bx Wh bh r q := by
  have e0 : ∑ k : Fin 1024, (B0 (ix2 p k) : EReal) * (B3 (ix2 k n) : EReal) = ∑ k : Fin 1024, x (ix2 r k) * Wx (ix2 q k) :=
    Finset.sum_congr rfl fun k _ => by rw [h0 k, h3 k]
  have e1 : ∑ k : Fin 1024, (B1 (ix2 p k) : EReal) * (B4 (ix2 k n) : EReal) = ∑ k : Fin 1024, h (ix2 r k) * Wh (ix2 q k) :=
    Finset.sum_congr rfl fun k _ => by rw [h1 k, h4 k]
  unfold gateK pre lin
  rw [h5, e0, e1]

/-- Gate 0's fused sum at row `p` of block `t` is that gate's pre-activation at row `128 t + p`. -/
theorem gate_i (c : Dev nD) (t : Fin cfg0.N) (p : Fin 128) (q : Fin 1024) :
    gateK (iblk m c 0 t) (iblk m c 1 t) (iblk m c 3 t) (iblk m c 4 t) (iblk m c 5 t) p (col 0 q)
      = pre (argsOf m c).x (argsOf m c).h (argsOf m c).Wix (argsOf m c).bix (argsOf m c).Wih (argsOf m c).bih ⟨128 * t.val + p.val, row_lt t p⟩ q :=
  gate_of (argsOf m c).x (argsOf m c).h (argsOf m c).Wix (argsOf m c).Wih (argsOf m c).bix (argsOf m c).bih (iblk m c 0 t) (iblk m c 1 t) (iblk m c 3 t) (iblk m c 4 t) (iblk m c 5 t)
    ⟨128 * t.val + p.val, row_lt t p⟩ p (col 0 q) q (blk0 m c t p) (blk1 m c t p)
    (fun k => (blk3 m c t k (col 0 q)).trans (wx_0 m c k q)) (fun k => (blk4 m c t k (col 0 q)).trans (wh_0 m c k q))
    ((blk5 m c t (col 0 q)).trans (b_0 m c q))
/-- Gate 1's fused sum at row `p` of block `t` is that gate's pre-activation at row `128 t + p`. -/
theorem gate_f (c : Dev nD) (t : Fin cfg0.N) (p : Fin 128) (q : Fin 1024) :
    gateK (iblk m c 0 t) (iblk m c 1 t) (iblk m c 3 t) (iblk m c 4 t) (iblk m c 5 t) p (col 1 q)
      = pre (argsOf m c).x (argsOf m c).h (argsOf m c).Wfx (argsOf m c).bfx (argsOf m c).Wfh (argsOf m c).bfh ⟨128 * t.val + p.val, row_lt t p⟩ q :=
  gate_of (argsOf m c).x (argsOf m c).h (argsOf m c).Wfx (argsOf m c).Wfh (argsOf m c).bfx (argsOf m c).bfh (iblk m c 0 t) (iblk m c 1 t) (iblk m c 3 t) (iblk m c 4 t) (iblk m c 5 t)
    ⟨128 * t.val + p.val, row_lt t p⟩ p (col 1 q) q (blk0 m c t p) (blk1 m c t p)
    (fun k => (blk3 m c t k (col 1 q)).trans (wx_1 m c k q)) (fun k => (blk4 m c t k (col 1 q)).trans (wh_1 m c k q))
    ((blk5 m c t (col 1 q)).trans (b_1 m c q))
/-- Gate 2's fused sum at row `p` of block `t` is that gate's pre-activation at row `128 t + p`. -/
theorem gate_g (c : Dev nD) (t : Fin cfg0.N) (p : Fin 128) (q : Fin 1024) :
    gateK (iblk m c 0 t) (iblk m c 1 t) (iblk m c 3 t) (iblk m c 4 t) (iblk m c 5 t) p (col 2 q)
      = pre (argsOf m c).x (argsOf m c).h (argsOf m c).Wgx (argsOf m c).bgx (argsOf m c).Wgh (argsOf m c).bgh ⟨128 * t.val + p.val, row_lt t p⟩ q :=
  gate_of (argsOf m c).x (argsOf m c).h (argsOf m c).Wgx (argsOf m c).Wgh (argsOf m c).bgx (argsOf m c).bgh (iblk m c 0 t) (iblk m c 1 t) (iblk m c 3 t) (iblk m c 4 t) (iblk m c 5 t)
    ⟨128 * t.val + p.val, row_lt t p⟩ p (col 2 q) q (blk0 m c t p) (blk1 m c t p)
    (fun k => (blk3 m c t k (col 2 q)).trans (wx_2 m c k q)) (fun k => (blk4 m c t k (col 2 q)).trans (wh_2 m c k q))
    ((blk5 m c t (col 2 q)).trans (b_2 m c q))
/-- Gate 3's fused sum at row `p` of block `t` is that gate's pre-activation at row `128 t + p`. -/
theorem gate_o (c : Dev nD) (t : Fin cfg0.N) (p : Fin 128) (q : Fin 1024) :
    gateK (iblk m c 0 t) (iblk m c 1 t) (iblk m c 3 t) (iblk m c 4 t) (iblk m c 5 t) p (col 3 q)
      = pre (argsOf m c).x (argsOf m c).h (argsOf m c).Wox (argsOf m c).box (argsOf m c).Woh (argsOf m c).boh ⟨128 * t.val + p.val, row_lt t p⟩ q :=
  gate_of (argsOf m c).x (argsOf m c).h (argsOf m c).Wox (argsOf m c).Woh (argsOf m c).box (argsOf m c).boh (iblk m c 0 t) (iblk m c 1 t) (iblk m c 3 t) (iblk m c 4 t) (iblk m c 5 t)
    ⟨128 * t.val + p.val, row_lt t p⟩ p (col 3 q) q (blk0 m c t p) (blk1 m c t p)
    (fun k => (blk3 m c t k (col 3 q)).trans (wx_3 m c k q)) (fun k => (blk4 m c t k (col 3 q)).trans (wh_3 m c k q))
    ((blk5 m c t (col 3 q)).trans (b_3 m c q))

/-- The new cell value the body computes at row `p` of block `t` is the cell step's at row `128 t + p`. -/
theorem cell_at (c : Dev nD) (t : Fin cfg0.N) (p : Fin 128) (q : Fin 1024) :
    k0_pay2 (F := Ideal) (iblk m c 0 t) (iblk m c 1 t) (iblk m c 3 t) (iblk m c 4 t) (iblk m c 5 t) (iblk m c 2 t) (ix2 p q)
      = cNewAt (argsOf m c) ⟨128 * t.val + p.val, row_lt t p⟩ q := by
  refine (pay2_apply (iblk m c 0 t) (iblk m c 1 t) (iblk m c 3 t) (iblk m c 4 t) (iblk m c 5 t) (iblk m c 2 t) p q).trans ?_
  rw [gate_f m c t p q, gate_i m c t p q, gate_g m c t p q, blk2 m c t p q]
  rfl

/-- The new hidden value the body computes at row `p` of block `t` is the cell step's at row `128 t + p`. -/
theorem hid_at (c : Dev nD) (t : Fin cfg0.N) (p : Fin 128) (q : Fin 1024) :
    k0_pay3 (F := Ideal) (iblk m c 0 t) (iblk m c 1 t) (iblk m c 3 t) (iblk m c 4 t) (iblk m c 5 t) (iblk m c 2 t) (ix2 p q)
      = hNewAt (argsOf m c) ⟨128 * t.val + p.val, row_lt t p⟩ q := by
  refine (pay3_apply (iblk m c 0 t) (iblk m c 1 t) (iblk m c 3 t) (iblk m c 4 t) (iblk m c 5 t) (iblk m c 2 t) p q).trans ?_
  rw [gate_o m c t p q, cell_at m c t p q]
  rfl

/-! ## Output window 6: the new hidden values -/

/-- What point `t` writes back is block `t` of `hNew` of the arguments. -/
theorem flushed6_eq (c : Dev nD) (t : Fin cfg0.N) :
    (dats m 0 c).flushed 6 t = ((cfg0.win 6).blk t).view.read (Elt Ideal) (hNew (argsOf m c)) := by
  show (cfg0.win 6).cut (grid0.coords t) ((dats m 0 c).after 6 t) = _
  rw [after0_6]
  unfold out0_6
  rw [View.canon_unit_zero hz]
  simp only [View.ld_unit_zero (S := S128x1024) hz, View.ld_unit_zero (S := S1024x4096) hz, View.ld_unit_zero (S := S1x4096) hz]
  funext j
  obtain ⟨p, q, rfl⟩ : ∃ (p : Fin 128) (q : Fin 1024), j = ix2 p q := ⟨j 0, j 1, eq_ix2 j⟩
  obtain ⟨-, -, -, -, -, -, -, -, -, -, -, -, e60, e61, e70, e71⟩ := idx_facts t
  have e : ((cfg0.win 6).blk t).view.emb (ix2 p q) = ix2 ⟨128 * t.val + p.val, row_lt t p⟩ q := by
    funext a; apply Fin.ext
    match a with
    | ⟨0, _⟩ => show win0_6.index t (0 : Fin 2) * 128 + 1 * p.val = 128 * t.val + p.val; omega
    | ⟨1, _⟩ => show win0_6.index t (1 : Fin 2) * 1024 + 1 * q.val = q.val; omega
  show k0_pay3 (F := Ideal) (iblk m c 0 t) (iblk m c 1 t) (iblk m c 3 t) (iblk m c 4 t) (iblk m c 5 t) (iblk m c 2 t) (ix2 p q)
    = hNew (argsOf m c) (((cfg0.win 6).blk t).view.emb (ix2 p q))
  rw [e, hNew_ix2]
  exact hid_at m c t p q

/-- An index of the array is in point `t`'s block iff each coordinate is in the block's range on its axis. -/
theorem mem_blk6 (t : Fin cfg0.N) (i : S4096x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v12_0).slice (win0_6.rect t)).set ↔ _
  rw [View.set_slice_whole, Rect.mem_set_unit]
  exact Iff.rfl

/-- The 32 blocks of 128 rows tile the 4096 rows: row `r` lies in the block of point `r / 128`. -/
theorem cover6 (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  have hN : (i 0).val / 128 < cfg0.N := by rw [show cfg0.N = 32 from N_0]; omega
  obtain ⟨-, -, -, -, -, -, -, -, -, -, -, -, e60, e61, e70, e71⟩ := idx_facts ⟨(i 0).val / 128, hN⟩
  refine ⟨⟨(i 0).val / 128, hN⟩, flush0_6 _, ?_⟩
  rw [mem_blk6]
  intro a
  match a with
  | ⟨0, _⟩ =>
    show win0_6.index ⟨(i 0).val / 128, hN⟩ (0 : Fin 2) * 128 ≤ (i 0).val ∧ (i 0).val < win0_6.index ⟨(i 0).val / 128, hN⟩ (0 : Fin 2) * 128 + 128
    have ht : (⟨(i 0).val / 128, hN⟩ : Fin cfg0.N).val = (i 0).val / 128 := rfl
    omega
  | ⟨1, _⟩ =>
    show win0_6.index ⟨(i 0).val / 128, hN⟩ (1 : Fin 2) * 1024 ≤ (i 1).val ∧ (i 1).val < win0_6.index ⟨(i 0).val / 128, hN⟩ (1 : Fin 2) * 1024 + 1024
    omega

/-- The array after the run is `hNew` of the arguments. -/
theorem final6 (c : Dev nD) : (dats m 0 c).arrAt 6 cfg0.N = hNew (argsOf m c) :=
  (dats m 0 c).arrAt_eq_of_cover 6 (hNew (argsOf m c)) (fun t _ => flushed6_eq m c t) cover6

/-! ## Output window 7: the new cell values -/

/-- What point `t` writes back is block `t` of `cNew` of the arguments. -/
theorem flushed7_eq (c : Dev nD) (t : Fin cfg0.N) :
    (dats m 0 c).flushed 7 t = ((cfg0.win 7).blk t).view.read (Elt Ideal) (cNew (argsOf m c)) := by
  show (cfg0.win 7).cut (grid0.coords t) ((dats m 0 c).after 7 t) = _
  rw [after0_7]
  unfold out0_7
  rw [View.canon_unit_zero hz]
  simp only [View.ld_unit_zero (S := S128x1024) hz, View.ld_unit_zero (S := S1024x4096) hz, View.ld_unit_zero (S := S1x4096) hz]
  funext j
  obtain ⟨p, q, rfl⟩ : ∃ (p : Fin 128) (q : Fin 1024), j = ix2 p q := ⟨j 0, j 1, eq_ix2 j⟩
  obtain ⟨-, -, -, -, -, -, -, -, -, -, -, -, e60, e61, e70, e71⟩ := idx_facts t
  have e : ((cfg0.win 7).blk t).view.emb (ix2 p q) = ix2 ⟨128 * t.val + p.val, row_lt t p⟩ q := by
    funext a; apply Fin.ext
    match a with
    | ⟨0, _⟩ => show win0_7.index t (0 : Fin 2) * 128 + 1 * p.val = 128 * t.val + p.val; omega
    | ⟨1, _⟩ => show win0_7.index t (1 : Fin 2) * 1024 + 1 * q.val = q.val; omega
  show k0_pay2 (F := Ideal) (iblk m c 0 t) (iblk m c 1 t) (iblk m c 3 t) (iblk m c 4 t) (iblk m c 5 t) (iblk m c 2 t) (ix2 p q)
    = cNew (argsOf m c) (((cfg0.win 7).blk t).view.emb (ix2 p q))
  rw [e, cNew_ix2]
  exact cell_at m c t p q

/-- An index of the array is in point `t`'s block iff each coordinate is in the block's range on its axis. -/
theorem mem_blk7 (t : Fin cfg0.N) (i : S4096x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v12_1).slice (win0_7.rect t)).set ↔ _
  rw [View.set_slice_whole, Rect.mem_set_unit]
  exact Iff.rfl

/-- The 32 blocks of 128 rows tile the 4096 rows: row `r` lies in the block of point `r / 128`. -/
theorem cover7 (i : S4096x1024.Idx) :
    ∃ t : Fin cfg0.N, (cfg0.win 7).flush t = true ∧ i ∈ ((cfg0.win 7).blk t).view.set := by
  have hi0 : (i 0).val < 4096 := (i 0).isLt
  have hi1 : (i 1).val < 1024 := (i 1).isLt
  have hN : (i 0).val / 128 < cfg0.N := by rw [show cfg0.N = 32 from N_0]; omega
  obtain ⟨-, -, -, -, -, -, -, -, -, -, -, -, e60, e61, e70, e71⟩ := idx_facts ⟨(i 0).val / 128, hN⟩
  refine ⟨⟨(i 0).val / 128, hN⟩, flush0_7 _, ?_⟩
  rw [mem_blk7]
  intro a
  match a with
  | ⟨0, _⟩ =>
    show win0_7.index ⟨(i 0).val / 128, hN⟩ (0 : Fin 2) * 128 ≤ (i 0).val ∧ (i 0).val < win0_7.index ⟨(i 0).val / 128, hN⟩ (0 : Fin 2) * 128 + 128
    have ht : (⟨(i 0).val / 128, hN⟩ : Fin cfg0.N).val = (i 0).val / 128 := rfl
    omega
  | ⟨1, _⟩ =>
    show win0_7.index ⟨(i 0).val / 128, hN⟩ (1 : Fin 2) * 1024 ≤ (i 1).val ∧ (i 1).val < win0_7.index ⟨(i 0).val / 128, hN⟩ (1 : Fin 2) * 1024 + 1024
    omega

/-- The array after the run is `cNew` of the arguments. -/
theorem final7 (c : Dev nD) : (dats m 0 c).arrAt 7 cfg0.N = cNew (argsOf m c) :=
  (dats m 0 c).arrAt_eq_of_cover 7 (cNew (argsOf m c)) (fun t _ => flushed7_eq m c t) cover7

/-! ## The run, read -/

/-- Every weakly fair execution of the program terminates with the first result array at `hNew` and the second at
    `cNew` of the arguments, the arguments unchanged. -/
theorem run : θ_run defs (onTc (τ := τ) (main (F := Ideal))) ⟨m, fun _ => 0, ρ⟩ fun r => ∀ c : Dev nD,
      r.2.mem ((c : Thread nD τ).loc main_v12_0) = hNew (argsOf m c)
      ∧ r.2.mem ((c : Thread nD τ).loc main_v12_1) = cNew (argsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨((h c).1 6).trans (final6 m c), ((h c).1 7).trans (final7 m c),
      kept_of m (dats m) (A_eq m) r h c⟩)
    (run_main m ρ)

end Cert.KernelIdeal.Val

end
-- ==== Proof.RefSide.lean ====
/-
  The reference program computes the cell step of `Cert.Lstm`.

  For each gate the reference forms `x · Wxᵀ + bx + h · Whᵀ + bh` from the left, with the weight matrix
  transposed first and each bias row repeated down the batch; at row `r`, unit `j` that is
  `((∑ k, x[r, k] * Wx[j, k]) + bx[j]) + (∑ k, h[r, k] * Wh[j, k])) + bh[j]`, the gate's pre-activation with
  its four summands grouped from the left. The logistic function is spelt `1 / (1 + exp (-t))` with the
  constant one written as its float pattern, which is the extended real one.
-/
import proofs.«169127_j32598801776688_1_alg».proof.Proof.Gen.ReferenceIdeal.Read
import proofs.«169127_j32598801776688_1_alg».proof.Proof.LibDot2
import proofs.«169127_j32598801776688_1_alg».proof.Proof.Spec
import Idealize.ShloMosaic.Lib.IdealHost
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefValue

open Idealize.ShloMosaic Idealize.ShloMosaic.ValueIdx Idealize.SL.Sem
open Cert.ReferenceIdeal Cert.ReferenceIdeal.Gen Cert.ReferenceIdeal.Read Cert.Lstm

/-- Two indices are equal when each coordinate is: rank 2. -/
local macro "idx2" : tactic =>
  `(tactic| (funext a; apply Fin.ext; match a with | ⟨0, _⟩ => rfl | ⟨1, _⟩ => rfl))
/-- Two indices are equal when each coordinate is: rank 1. -/
local macro "idx1" : tactic =>
  `(tactic| (funext a; apply Fin.ext; match a with | ⟨0, _⟩ => rfl))

/-! ## The four pre-activations

  At row `r`, unit `j` the transposed weight matrix is read at `(k, j)`, that is the matrix itself at `(j, k)`; the
  bias row repeated down the batch is read at `j`. The four summands arrive grouped from the left. -/

/-- The input gate's pre-activation at row `r`, unit `j`. -/
theorem pre_i (a : Args) (r : Fin 4096) (j : Fin 1024) :
    val_main_v10 (F := Ideal) a.x a.h a.Wix a.bix a.Wih a.bih (ix2 r j) = pre a.x a.h a.Wix a.bix a.Wih a.bih r j := by
  rw [val_main_v10_apply, val_main_v7_apply, val_main_v4_apply, val_main_v1_apply, val_main_v6_apply,
    val_main_v3_apply, val_main_v2_apply, val_main_v9_apply, val_main_v8_apply]
  simp only [val_main_v0_apply, val_main_v5_apply]
  have e1 : ∀ k : Fin 1024, lidx_main_v1 (ix2 r j) k = ix2 r k := fun k => by idx2
  have e2 : ∀ k : Fin 1024, idx_main_v0 (ridx_main_v1 (ix2 r j) k) = ix2 j k := fun k => by idx2
  have e3 : ∀ k : Fin 1024, lidx_main_v6 (ix2 r j) k = ix2 r k := fun k => by idx2
  have e4 : ∀ k : Fin 1024, idx_main_v5 (ridx_main_v6 (ix2 r j) k) = ix2 j k := fun k => by idx2
  have e5 : idx_main_v2 (idx_main_v3 (ix2 r j)) = ix1 j := by idx1
  have e6 : idx_main_v8 (idx_main_v9 (ix2 r j)) = ix1 j := by idx1
  simp only [e1, e2, e3, e4, e5, e6, Ideal.addf_def]
  exact pre_eq_left a.x a.h a.Wix a.bix a.Wih a.bih r j

/-- The forget gate's pre-activation at row `r`, unit `j`. -/
theorem pre_f (a : Args) (r : Fin 4096) (j : Fin 1024) :
    val_main_v27 (F := Ideal) a.x a.h a.Wfx a.bfx a.Wfh a.bfh (ix2 r j) = pre a.x a.h a.Wfx a.bfx a.Wfh a.bfh r j := by
  rw [val_main_v27_apply, val_main_v24_apply, val_main_v21_apply, val_main_v18_apply, val_main_v23_apply,
    val_main_v20_apply, val_main_v19_apply, val_main_v26_apply, val_main_v25_apply]
  simp only [val_main_v17_apply, val_main_v22_apply]
  have e1 : ∀ k : Fin 1024, lidx_main_v18 (ix2 r j) k = ix2 r k := fun k => by idx2
  have e2 : ∀ k : Fin 1024, idx_main_v17 (ridx_main_v18 (ix2 r j) k) = ix2 j k := fun k => by idx2
  have e3 : ∀ k : Fin 1024, lidx_main_v23 (ix2 r j) k = ix2 r k := fun k => by idx2
  have e4 : ∀ k : Fin 1024, idx_main_v22 (ridx_main_v23 (ix2 r j) k) = ix2 j k := fun k => by idx2
  have e5 : idx_main_v19 (idx_main_v20 (ix2 r j)) = ix1 j := by idx1
  have e6 : idx_main_v25 (idx_main_v26 (ix2 r j)) = ix1 j := by idx1
  simp only [e1, e2, e3, e4, e5, e6, Ideal.addf_def]
  exact pre_eq_left a.x a.h a.Wfx a.bfx a.Wfh a.bfh r j

/-- The candidate gate's pre-activation at row `r`, unit `j`. -/
theorem pre_g (a : Args) (r : Fin 4096) (j : Fin 1024) :
    val_main_v44 (F := Ideal) a.x a.h a.Wgx a.bgx a.Wgh a.bgh (ix2 r j) = pre a.x a.h a.Wgx a.bgx a.Wgh a.bgh r j := by
  rw [val_main_v44_apply, val_main_v41_apply, val_main_v38_apply, val_main_v35_apply, val_main_v40_apply,
    val_main_v37_apply, val_main_v36_apply, val_main_v43_apply, val_main_v42_apply]
  simp only [val_main_v34_apply, val_main_v39_apply]
  have e1 : ∀ k : Fin 1024, lidx_main_v35 (ix2 r j) k = ix2 r k := fun k => by idx2
  have e2 : ∀ k : Fin 1024, idx_main_v34 (ridx_main_v35 (ix2 r j) k) = ix2 j k := fun k => by idx2
  have e3 : ∀ k : Fin 1024, lidx_main_v40 (ix2 r j) k = ix2 r k := fun k => by idx2
  have e4 : ∀ k : Fin 1024, idx_main_v39 (ridx_main_v40 (ix2 r j) k) = ix2 j k := fun k => by idx2
  have e5 : idx_main_v36 (idx_main_v37 (ix2 r j)) = ix1 j := by idx1
  have e6 : idx_main_v42 (idx_main_v43 (ix2 r j)) = ix1 j := by idx1
  simp only [e1, e2, e3, e4, e5, e6, Ideal.addf_def]
  exact pre_eq_left a.x a.h a.Wgx a.bgx a.Wgh a.bgh r j

/-- The output gate's pre-activation at row `r`, unit `j`. -/
theorem pre_o (a : Args) (r : Fin 4096) (j : Fin 1024) :
    val_main_v56 (F := Ideal) a.x a.h a.Wox a.box a.Woh a.boh (ix2 r j) = pre a.x a.h a.Wox a.box a.Woh a.boh r j := by
  rw [val_main_v56_apply, val_main_v53_apply, val_main_v50_apply, val_main_v47_apply, val_main_v52_apply,
    val_main_v49_apply, val_main_v48_apply, val_main_v55_apply, val_main_v54_apply]
  simp only [val_main_v46_apply, val_main_v51_apply]
  have e1 : ∀ k : Fin 1024, lidx_main_v47 (ix2 r j) k = ix2 r k := fun k => by idx2
  have e2 : ∀ k : Fin 1024, idx_main_v46 (ridx_main_v47 (ix2 r j) k) = ix2 j k := fun k => by idx2
  have e3 : ∀ k : Fin 1024, lidx_main_v52 (ix2 r j) k = ix2 r k := fun k => by idx2
  have e4 : ∀ k : Fin 1024, idx_main_v51 (ridx_main_v52 (ix2 r j) k) = ix2 j k := fun k => by idx2
  have e5 : idx_main_v48 (idx_main_v49 (ix2 r j)) = ix1 j := by idx1
  have e6 : idx_main_v54 (idx_main_v55 (ix2 r j)) = ix1 j := by idx1
  simp only [e1, e2, e3, e4, e5, e6, Ideal.addf_def]
  exact pre_eq_left a.x a.h a.Wox a.box a.Woh a.boh r j

/-! ## The three logistic gates

  `1 / (1 + exp (-t))` with the constant one given by its float pattern, which is the extended real one, is the
  logistic function of `t`. -/

/-- The input gate at row `r`, unit `j`: the logistic function of its pre-activation. -/
theorem sig_i (a : Args) (r : Fin 4096) (j : Fin 1024) :
    val_main_v16 (F := Ideal) a.x a.h a.Wix a.bix a.Wih a.bih (ix2 r j) = Ideal.logistic (pre a.x a.h a.Wix a.bix a.Wih a.bih r j) := by
  rw [val_main_v16_apply, val_main_v15_apply, val_main_cst_0_apply, val_main_v14_apply, val_main_v13_apply,
    val_main_cst_apply, val_main_v12_apply, val_main_v11_apply, pre_i]
  simp only [Ideal.ofBits_def, Ideal.ofBits_one_f32, Ideal.hostDivf_def, Ideal.addf_def, Ideal.hostUnary_exp_def,
    Ideal.hostNegf_def, Ideal.negf_def]
  rfl

/-- The forget gate at row `r`, unit `j`: the logistic function of its pre-activation. -/
theorem sig_f (a : Args) (r : Fin 4096) (j : Fin 1024) :
    val_main_v33 (F := Ideal) a.x a.h a.Wfx a.bfx a.Wfh a.bfh (ix2 r j) = Ideal.logistic (pre a.x a.h a.Wfx a.bfx a.Wfh a.bfh r j) := by
  rw [val_main_v33_apply, val_main_v32_apply, val_main_cst_2_apply, val_main_v31_apply, val_main_v30_apply,
    val_main_cst_1_apply, val_main_v29_apply, val_main_v28_apply, pre_f]
  simp only [Ideal.ofBits_def, Ideal.ofBits_one_f32, Ideal.hostDivf_def, Ideal.addf_def, Ideal.hostUnary_exp_def,
    Ideal.hostNegf_def, Ideal.negf_def]
  rfl

/-- The output gate at row `r`, unit `j`: the logistic function of its pre-activation. -/
theorem sig_o (a : Args) (r : Fin 4096) (j : Fin 1024) :
    val_main_v62 (F := Ideal) a.x a.h a.Wox a.box a.Woh a.boh (ix2 r j) = Ideal.logistic (pre a.x a.h a.Wox a.box a.Woh a.boh r j) := by
  rw [val_main_v62_apply, val_main_v61_apply, val_main_cst_4_apply, val_main_v60_apply, val_main_v59_apply,
    val_main_cst_3_apply, val_main_v58_apply, val_main_v57_apply, pre_o]
  simp only [Ideal.ofBits_def, Ideal.ofBits_one_f32, Ideal.hostDivf_def, Ideal.addf_def, Ideal.hostUnary_exp_def,
    Ideal.hostNegf_def, Ideal.negf_def]
  rfl

/-! ## The cell step -/

/-- The new cell value at row `r`, unit `j`: forget gate times the old cell value plus input gate times the
    hyperbolic tangent of the candidate's pre-activation. -/
theorem c_at (a : Args) (r : Fin 4096) (j : Fin 1024) :
    val_main_v65 (F := Ideal) a.x a.h a.c a.Wix a.bix a.Wfx a.bfx a.Wgx a.bgx a.Wih a.bih a.Wfh a.bfh a.Wgh a.bgh (ix2 r j)
      = cNewAt a r j := by
  rw [val_main_v65_apply, val_main_v63_apply, val_main_v64_apply, val_main_v45_apply, sig_f, sig_i, pre_g]
  simp only [Ideal.addf_def, Ideal.mulf_def, Ideal.hostUnary_tanh_def]
  rfl

/-- The new hidden value at row `r`, unit `j`: output gate times the hyperbolic tangent of the new cell value. -/
theorem h_at (a : Args) (r : Fin 4096) (j : Fin 1024) :
    val_main_v67 (F := Ideal) a.x a.h a.c a.Wix a.bix a.Wfx a.bfx a.Wgx a.bgx a.Wox a.box a.Wih a.bih a.Wfh a.bfh
      a.Wgh a.bgh a.Woh a.boh (ix2 r j) = hNewAt a r j := by
  rw [val_main_v67_apply, val_main_v66_apply, sig_o, c_at]
  simp only [Ideal.mulf_def, Ideal.hostUnary_tanh_def]
  rfl

/-- The reference's new cell array is `cNew` of its arguments. -/
theorem c_eq (a : Args) :
    val_main_v65 (F := Ideal) a.x a.h a.c a.Wix a.bix a.Wfx a.bfx a.Wgx a.bgx a.Wih a.bih a.Wfh a.bfh a.Wgh a.bgh
      = cNew a := by
  funext i
  obtain ⟨r, j, rfl⟩ : ∃ (r : Fin 4096) (j : Fin 1024), i = ix2 r j := ⟨i 0, i 1, eq_ix2 i⟩
  rw [cNew_ix2]
  exact c_at a r j

/-- The reference's new hidden array is `hNew` of its arguments. -/
theorem h_eq (a : Args) :
    val_main_v67 (F := Ideal) a.x a.h a.c a.Wix a.bix a.Wfx a.bfx a.Wgx a.bgx a.Wox a.box a.Wih a.bih a.Wfh a.bfh
      a.Wgh a.bgh a.Woh a.boh = hNew a := by
  funext i
  obtain ⟨r, j, rfl⟩ : ∃ (r : Fin 4096) (j : Fin 1024), i = ix2 r j := ⟨i 0, i 1, eq_ix2 i⟩
  rw [hNew_ix2]
  exact h_at a r j

end Cert.ReferenceIdeal.RefValue

end
-- ==== Proof.lean ====
/-
  One step of a long short-term memory cell: a fused kernel against four separate gates.

  The kernel stacks the four gates' input weight matrices into one fused matrix (1024 features by 4096
  columns), does the same for the hidden weights, adds each gate's two bias vectors and lays the sums end to
  end; on each block of 128 rows it forms `x · Wx + h · Wh + b` once over all 4096 columns, cuts the columns into
  the four gates, and applies the logistic function, the hyperbolic tangent and the cell update. The reference
  computes each gate separately as `x · Wᵀ + bx + h · W'ᵀ + bh`, with the logistic function spelt
  `1 / (1 + exp (-t))`. Over the extended reals both compute, at every row and unit, the cell step of `Cert.Lstm`:
  the kernel's fused sum at column `1024 g + q` is gate `g`'s pre-activation with the two products and the two
  biases grouped in pairs, the reference's is the same four summands from the left, and addition of extended
  reals is commutative and associative; the logistic operation is by definition `1 / (1 + exp (-t))`; a change of
  float format is the identity. No finiteness of the inputs is used.

  Both kernel programs (the word-level one and its idealization, the same text) terminate without a fault and
  leave their nineteen arguments unchanged: the host operations before the region write fresh buffers only, and
  the region's body touches only its staging buffers. The idealization rewrote nothing, so there is nothing to
  preserve. The reference is a straight line of host operations.
-/
import proofs.«169127_j32598801776688_1_alg».proof.Defs
import proofs.«169127_j32598801776688_1_alg».proof.Proof.Gen.Kernel
import proofs.«169127_j32598801776688_1_alg».proof.Proof.Gen.Kernel.Skeleton
import proofs.«169127_j32598801776688_1_alg».proof.Proof.Gen.Kernel.Launch
import proofs.«169127_j32598801776688_1_alg».proof.Proof.Gen.Kernel.Points
import proofs.«169127_j32598801776688_1_alg».proof.Proof.Gen.KernelIdeal
import proofs.«169127_j32598801776688_1_alg».proof.Proof.Gen.KernelIdeal.Skeleton
import proofs.«169127_j32598801776688_1_alg».proof.Proof.Gen.KernelIdeal.Launch
import proofs.«169127_j32598801776688_1_alg».proof.Proof.Gen.KernelIdeal.Points
import proofs.«169127_j32598801776688_1_alg».proof.Proof.Gen.ReferenceIdeal
import proofs.«169127_j32598801776688_1_alg».proof.Proof.Gen.Pre_finite_inputs
import proofs.«169127_j32598801776688_1_alg».proof.Proof.Gen.ReferenceIdeal.Run
import proofs.«169127_j32598801776688_1_alg».proof.Proof.Gen.ReferenceIdeal.Read
import proofs.«169127_j32598801776688_1_alg».proof.Proof.FrameBitsC
import proofs.«169127_j32598801776688_1_alg».proof.Proof.FrameIdealC
import proofs.«169127_j32598801776688_1_alg».proof.Proof.KValue
import proofs.«169127_j32598801776688_1_alg».proof.Proof.RefSide
import Idealize.ShloMosaic.Adequacy
import Idealize.ShloMosaic.Init

noncomputable section

namespace Cert.Proof

open Idealize.ShloMosaic Idealize.ShloMosaic.TcCoe Idealize.SL.Sem Cert.Lstm

/-- The reference's nineteen argument arrays of core `c`, as launched. -/
def refArgs (m' : (ℓ : Loc Cert.ReferenceIdeal.nD Cert.ReferenceIdeal.τ Cert.ReferenceIdeal.sig) → Buf (Elt Ideal) ℓ) (c : Dev Cert.ReferenceIdeal.nD) : Args where
  x := m' ((c.tc : Thread Cert.ReferenceIdeal.nD Cert.ReferenceIdeal.τ).loc Cert.ReferenceIdeal.main_arg0)
  h := m' ((c.tc : Thread Cert.ReferenceIdeal.nD Cert.ReferenceIdeal.τ).loc Cert.ReferenceIdeal.main_arg1)
  c := m' ((c.tc : Thread Cert.ReferenceIdeal.nD Cert.ReferenceIdeal.τ).loc Cert.ReferenceIdeal.main_arg2)
  Wix := m' ((c.tc : Thread Cert.ReferenceIdeal.nD Cert.ReferenceIdeal.τ).loc Cert.ReferenceIdeal.main_arg3)
  bix := m' ((c.tc : Thread Cert.ReferenceIdeal.nD Cert.ReferenceIdeal.τ).loc Cert.ReferenceIdeal.main_arg4)
  Wfx := m' ((c.tc : Thread Cert.ReferenceIdeal.nD Cert.ReferenceIdeal.τ).loc Cert.ReferenceIdeal.main_arg5)
  bfx := m' ((c.tc : Thread Cert.ReferenceIdeal.nD Cert.ReferenceIdeal.τ).loc Cert.ReferenceIdeal.main_arg6)
  Wgx := m' ((c.tc : Thread Cert.ReferenceIdeal.nD Cert.ReferenceIdeal.τ).loc Cert.ReferenceIdeal.main_arg7)
  bgx := m' ((c.tc : Thread Cert.ReferenceIdeal.nD Cert.ReferenceIdeal.τ).loc Cert.ReferenceIdeal.main_arg8)
  Wox := m' ((c.tc : Thread Cert.ReferenceIdeal.nD Cert.ReferenceIdeal.τ).loc Cert.ReferenceIdeal.main_arg9)
  box := m' ((c.tc : Thread Cert.ReferenceIdeal.nD Cert.ReferenceIdeal.τ).loc Cert.ReferenceIdeal.main_arg10)
  Wih := m' ((c.tc : Thread Cert.ReferenceIdeal.nD Cert.ReferenceIdeal.τ).loc Cert.ReferenceIdeal.main_arg11)
  bih := m' ((c.tc : Thread Cert.ReferenceIdeal.nD Cert.ReferenceIdeal.τ).loc Cert.ReferenceIdeal.main_arg12)
  Wfh := m' ((c.tc : Thread Cert.ReferenceIdeal.nD Cert.ReferenceIdeal.τ).loc Cert.ReferenceIdeal.main_arg13)
  bfh := m' ((c.tc : Thread Cert.ReferenceIdeal.nD Cert.ReferenceIdeal.τ).loc Cert.ReferenceIdeal.main_arg14)
  Wgh := m' ((c.tc : Thread Cert.ReferenceIdeal.nD Cert.ReferenceIdeal.τ).loc Cert.ReferenceIdeal.main_arg15)
  bgh := m' ((c.tc : Thread Cert.ReferenceIdeal.nD Cert.ReferenceIdeal.τ).loc Cert.ReferenceIdeal.main_arg16)
  Woh := m' ((c.tc : Thread Cert.ReferenceIdeal.nD Cert.ReferenceIdeal.τ).loc Cert.ReferenceIdeal.main_arg17)
  boh := m' ((c.tc : Thread Cert.ReferenceIdeal.nD Cert.ReferenceIdeal.τ).loc Cert.ReferenceIdeal.main_arg18)

/-- The word-level kernel program terminates without a fault and leaves its arguments unchanged. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference is a straight line of host operations: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the nineteen arguments, the idealized kernel and the reference both run to the
    end, the first results both `hNew` and the second both `cNew` of the arguments. -/
theorem algebraic : Cert.algebraic_KernelIdeal_ReferenceIdeal := by
  intro m ρ m' ρ' _ hagree
  have hargs : ∀ c, refArgs m' c = Cert.KernelIdeal.HostPre.argsOf m c := fun c => by
    obtain ⟨h0, h1, h2, h3, h4, h5, h6, h7, h8, h9, h10, h11, h12, h13, h14, h15, h16, h17, h18⟩ := hagree c
    unfold refArgs Cert.KernelIdeal.HostPre.argsOf
    rw [h0, h1, h2, h3, h4, h5, h6, h7, h8, h9, h10, h11, h12, h13, h14, h15, h16, h17, h18]
  refine ⟨fun c => hNew (Cert.KernelIdeal.HostPre.argsOf m c), fun c => cNew (Cert.KernelIdeal.HostPre.argsOf m c),
    Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v67_eq]
    exact (Cert.ReferenceIdeal.RefValue.h_eq (refArgs m' c)).trans (congrArg hNew (hargs c))
  · rw [Cert.ReferenceIdeal.Read.val_main_v65_eq]
    exact (Cert.ReferenceIdeal.RefValue.c_eq (refArgs m' c)).trans (congrArg cNew (hargs c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
